-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x32x35 : Shape := ⟨4, ![4, 16384, 32, 35]⟩
abbrev S32x35 : Shape := ⟨2, ![32, 35]⟩
abbrev S32 : Shape := ⟨1, ![32]⟩
abbrev S32x32 : Shape := ⟨2, ![32, 32]⟩
abbrev S_ : Shape := ⟨0, ![]⟩

class Facts : Prop where
  bcast_S_S4x16384x32x35 : S_.BroadcastsInDim S4x16384x32x35 (![] : Fin 0 → Fin S4x16384x32x35.rank)
  reducesTo_S4x16384x32x35_S_d0_1_2_3 : S4x16384x32x35.ReducesTo [0, 1, 2, 3] S_
  h_S_ : 0 < S_.numel
  bcast_S_S32x35 : S_.BroadcastsInDim S32x35 (![] : Fin 0 → Fin S32x35.rank)
  reducesTo_S32x35_S_d0_1 : S32x35.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32 .f32) (main_arg5 : FVec F S32x32 .f32) (main_arg6 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S4x16384x32x35 .f32) (main_arg1 : FVec F S32x35 .f32) (main_arg2 : FVec F S32 .f32) (main_arg3 : FVec F S32x32 .f32) (main_arg4 : FVec F S32 .f32) (main_arg5 : FVec F S32x32 .f32) (main_arg6 : FVec F S32 .f32) : IVec S_ 1 :=
  let main_v0 : FVec F S4x16384x32x35 .f32 := Host.absf main_arg0
  let main_cst : FVec F S_ .f32 := constant S_ .f32 0x7F800000#32
  let main_v1 : FVec F S4x16384x32x35 .f32 := broadcastInDim S4x16384x32x35 ![] bcast_S_S4x16384x32x35 main_cst
  let main_v2 : IVec S4x16384x32x35 1 := cmpf .olt main_v0 main_v1
  let main_c : IVec S_ 1 := constantI S_ 1 1#1
  let main_v3 : IVec S_ 1 := (fun x v => Host.reduce IntOp.andi x v reducesTo_S4x16384x32x35_S_d0_1_2_3 h_S_) main_v2 main_c
  let main_v4 : FVec F S32x35 .f32 := Host.absf main_arg1
  let main_cst_0 : FVec F S_ .f32 := constant S_ .f32 0x7F800000#32
  let main_v5 : FVec F S32x35 .f32 := broadcastInDim S32x35 ![] bcast_S_S32x35 main_cst_0
  let main_v6 : IVec S32x35 1 := cmpf .olt main_v4 main_v5
  let main_c_1 : IVec S_ 1 := constantI S_ 1 1#1
  let main_v7 : IVec S_ 1 := (fun x v => Host.reduce IntOp.andi x v reducesTo_S32x35_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S4x16384x32x35 : Shape := ⟨4, ![4, 16384, 32, 35]⟩
abbrev S32x35 : Shape := ⟨2, ![32, 35]⟩
abbrev S32 : Shape := ⟨1, ![32]⟩
abbrev S32x32 : Shape := ⟨2, ![32, 32]⟩
abbrev S4x16384x32 : Shape := ⟨3, ![4, 16384, 32]⟩
abbrev S1x1024x32x35 : Shape := ⟨4, ![1, 1024, 32, 35]⟩
abbrev S1x1024x32 : Shape := ⟨3, ![1, 1024, 32]⟩
abbrev S1024x32x35 : Shape := ⟨3, ![1024, 32, 35]⟩
abbrev S32768x35 : Shape := ⟨2, ![32768, 35]⟩
abbrev S35x32 : Shape := ⟨2, ![35, 32]⟩
abbrev S32768x32 : Shape := ⟨2, ![32768, 32]⟩
abbrev S1x32 : Shape := ⟨2, ![1, 32]⟩
abbrev S1024x32x32 : Shape := ⟨3, ![1024, 32, 32]⟩
abbrev S1024x32 : Shape := ⟨2, ![1024, 32]⟩

abbrev nBuf : Space → Nat
  | .hbm => 8
  | .vmem => 10
  | .smem => 0
  | _ => 0

abbrev bufTy : (tb : Table) → Fin (tcTables nBuf tb) → BufTy
  | .hbm, ⟨0, _⟩ => ⟨S4x16384x32x35, .f32⟩
  | .hbm, ⟨1, _⟩ => ⟨S32x35, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S4x16384x32, .f32⟩
  | .local _ .vmem, ⟨0, _⟩ => ⟨S1x1024x32x35, .f32⟩
  | .local _ .vmem, ⟨1, _⟩ => ⟨S1x1024x32x35, .f32⟩
  | .local _ .vmem, ⟨2, _⟩ => ⟨S32x35, .f32⟩
  | .local _ .vmem, ⟨3, _⟩ => ⟨S32, .f32⟩
  | .local _ .vmem, ⟨4, _⟩ => ⟨S32x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S1x1024x32, .f32⟩
  | .local _ .vmem, ⟨9, _⟩ => ⟨S1x1024x32, .f32⟩
  | _, _ => ⟨S4x16384x32x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x32x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x35 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x1024x32x35_S1x1024x32x35_0_0_0_0 : ∀ a, (![0, 0, 0, 0] : Fin 4 → Nat) a + S1x1024x32x35.size a ≤ S1x1024x32x35.size a
  h_S1x1024x32x35 : 0 < S1x1024x32x35.numel
  shapeCasts_S1x1024x32x35_S1024x32x35 : S1x1024x32x35.ShapeCasts S1024x32x35
  shapeCasts_S1024x32x35_S32768x35 : S1024x32x35.ShapeCasts S32768x35
  bitsLt_bf16_f32 : FTy.bits .bf16 < FTy.bits .f32
  inb_S32x35_S32x35_0_0 : ∀ a, (![0, 0] : Fin 2 → Nat) a + S32x35.size a ≤ S32x35.size a
  h_S32x35 : 0 < S32x35.numel
  inb_S32_S32_0 : ∀ a, (![0] : Fin 1 → Nat) a + S32.size a ≤ S32.size a
  h_S32 : 0 < S32.numel
  transposes_S32x35_p1_0_S35x32 : S32x35.Transposes [1, 0] S35x32
  shapeCasts_S32_S1x32 : S32.ShapeCasts S1x32
  broadcasts_S1x32_S32768x32 : S1x32.Broadcasts S32768x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  shapeCasts_S32768x32_S1024x32x32 : S32768x32.ShapeCasts S1024x32x32
  reduces_S1024x32x32_S1024x32 : S1024x32x32.Reduces [1] S1024x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  dot_S32768x35_S35x32_S32768x32_1_0_0_1_n_n_wf : DotDims.WF S32768x35 S35x32 S32768x32 [1] [0] [0] [1] [] []
  dot_S32768x32_S32x32_S32768x32_1_0_0_1_n_n_wf : DotDims.WF S32768x32 S32x32 S32768x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32x35.size a ≤ S4x16384x32x35.size a
  hwx0_0 : ∀ i : grid0.Coords, EltTy.bits .f32 = 32 ∨ (Rect.block (s := S4x16384x32x35) S1x1024x32x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x35.size a ≤ S32x35.size a
  hwx0_1 : ∀ i : grid0.Coords, EltTy.bits .f32 = 32 ∨ (Rect.block (s := S32x35) S32x35.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x32.size a ≤ S4x16384x32.size a
  hwx0_7 : ∀ i : grid0.Coords, EltTy.bits .f32 = 32 ∨ (Rect.block (s := S4x16384x32) S1x1024x32.size (cc0_transform_7 i) (hinb0_7 i)).WholeWords (EltTy.packing .f32)

variable [Facts₀]

def dot_S32768x35_S35x32_S32768x32_1_0_0_1_n_n : DotDims S32768x35 S35x32 S32768x32 where
  lhsContracting := [1]
  rhsContracting := [0]
  lhsNonContracting := [0]
  rhsNonContracting := [1]
  lhsBatch := []
  rhsBatch := []
  wf := dot_S32768x35_S35x32_S32768x32_1_0_0_1_n_n_wf
def dot_S32768x32_S32x32_S32768x32_1_0_0_1_n_n : DotDims S32768x32 S32x32 S32768x32 where
  lhsContracting := [1]
  rhsContracting := [0]
  lhsNonContracting := [0]
  rhsNonContracting := [1]
  lhsBatch := []
  rhsBatch := []
  wf := dot_S32768x32_S32x32_S32768x32_1_0_0_1_n_n_wf

abbrev win0_0 : Pipeline.Window sig grid0 :=
  Pipeline.Window.ofSpec (Memref.whole main_arg0) S1x1024x32x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x35.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1024x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x16384x32x35 : Shape := ⟨4, ![4, 16384, 32, 35]⟩
abbrev S32x35 : Shape := ⟨2, ![32, 35]⟩
abbrev S32 : Shape := ⟨1, ![32]⟩
abbrev S32x32 : Shape := ⟨2, ![32, 32]⟩
abbrev S4x16384x32x32 : Shape := ⟨4, ![4, 16384, 32, 32]⟩
abbrev S1x1x1x32 : Shape := ⟨4, ![1, 1, 1, 32]⟩
abbrev S_ : Shape := ⟨0, ![]⟩
abbrev S4x16384x32 : Shape := ⟨3, ![4, 16384, 32]⟩

abbrev nBuf : Space → Nat
  | .hbm => 21
  | .vmem => 0
  | .smem => 0
  | _ => 0

abbrev bufTy : (tb : Table) → Fin (tcTables nBuf tb) → BufTy
  | .hbm, ⟨0, _⟩ => ⟨S4x16384x32x35, .f32⟩
  | .hbm, ⟨1, _⟩ => ⟨S32x35, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S4x16384x32x32, .f32⟩
  | .hbm, ⟨8, _⟩ => ⟨S1x1x1x32, .f32⟩
  | .hbm, ⟨9, _⟩ => ⟨S4x16384x32x32, .f32⟩
  | .hbm, ⟨10, _⟩ => ⟨S4x16384x32x32, .f32⟩
  | .hbm, ⟨11, _⟩ => ⟨S4x16384x32x32, .f32⟩
  | .hbm, ⟨12, _⟩ => ⟨S1x1x1x32, .f32⟩
  | .hbm, ⟨13, _⟩ => ⟨S4x16384x32x32, .f32⟩
  | .hbm, ⟨14, _⟩ => ⟨S4x16384x32x32, .f32⟩
  | .hbm, ⟨15, _⟩ => ⟨S4x16384x32x32, .f32⟩
  | .hbm, ⟨16, _⟩ => ⟨S1x1x1x32, .f32⟩
  | .hbm, ⟨17, _⟩ => ⟨S4x16384x32x32, .f32⟩
  | .hbm, ⟨18, _⟩ => ⟨S4x16384x32x32, .f32⟩
  | .hbm, ⟨19, _⟩ => ⟨S_, .f32⟩
  | .hbm, ⟨20, _⟩ => ⟨S4x16384x32, .f32⟩
  | _, _ => ⟨S4x16384x32x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S4x16384x32x32_0_1_2_3 : S1x1x1x32.BroadcastsInDim S4x16384x32x32 (![0, 1, 2, 3] : Fin 4 → Fin S4x16384x32x32.rank)
  reducesTo_S4x16384x32x32_S4x16384x32_d2 : S4x16384x32x32.ReducesTo [2] S4x16384x32
  h_S_ : 0 < S_.numel
  dot_S4x16384x32x35_S32x35_S4x16384x32x32_3_1_012_0_n_n_wf : DotDims.WF S4x16384x32x35 S32x35 S4x16384x32x32 [3] [1] [0, 1, 2] [0] [] []
  dot_S4x16384x32x32_S32x32_S4x16384x32x32_3_1_012_0_n_n_wf : DotDims.WF S4x16384x32x32 S32x32 S4x16384x32x32 [3] [1] [0, 1, 2] [0] [] []

variable [Facts₀]

def dot_S4x16384x32x35_S32x35_S4x16384x32x32_3_1_012_0_n_n : DotDims S4x16384x32x35 S32x35 S4x16384x32x32 where
  lhsContracting := [3]
  rhsContracting := [1]
  lhsNonContracting := [0, 1, 2]
  rhsNonContracting := [0]
  lhsBatch := []
  rhsBatch := []
  wf := dot_S4x16384x32x35_S32x35_S4x16384x32x32_3_1_012_0_n_n_wf
def dot_S4x16384x32x32_S32x32_S4x16384x32x32_3_1_012_0_n_n : DotDims S4x16384x32x32 S32x32 S4x16384x32x32 where
  lhsContracting := [3]
  rhsContracting := [1]
  lhsNonContracting := [0, 1, 2]
  rhsNonContracting := [0]
  lhsBatch := []
  rhsBatch := []
  wf := dot_S4x16384x32x32_S32x32_S4x16384x32x32_3_1_012_0_n_n_wf

class Facts : Prop extends Facts₀ where

variable [Facts]
-- ==== Proof.Spec.lean ====
/-
  The function both programs compute: three affine layers on each feature row, then the
  maximum over the 32 neighbours.

  For a row x of K features, a weight matrix W of shape [H, K] and a bias b of length H, one
  affine layer is
      affine x W b [h] = (∑ f, x[f] * W[h, f]) + b[h].
  The network applies three of them with no nonlinearity between, 35 → 32 → 32 → 32, to the row
  X[b, n, k, :] of every neighbour k of every point (b, n), and the result at (b, n, h) is the
  maximum over the 32 neighbours k, folded from −∞ (the f32 pattern 0xFF800000).
  Everything is over the extended reals: no sum is reordered and no product distributed, so
  the definition needs no finiteness.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- One affine layer on one row: `y[h] = (∑ f, x[f] * W[h, f]) + b[h]`, the weight matrix stored
    output-major (`[H, K]`), as `einsum('…f,hf->…h')` reads it. -/
def affine {K H : Nat} (x : Fin K → EReal) (W : (⟨2, ![H, K]⟩ : Shape).Idx → EReal)
    (b : (⟨1, ![H]⟩ : Shape).Idx → EReal) : Fin H → EReal :=
  fun h => (∑ f : Fin K, x f * W (ix2 h f)) + b (ix1 h)

/-- The three layers, 35 → 32 → 32 → 32, on one row. -/
def mlp (W1 : (⟨2, ![32, 35]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (x : Fin 35 → EReal) : Fin 32 → EReal :=
  affine (affine (affine x W1 b1) W2 b2) W3 b3

/-- The value −∞ the maximum is folded from, as the f32 pattern both programs print. -/
abbrev negInf : EReal := FloatOps.ofBits (F := Ideal) .f32 0xFF800000#32

/-- The whole result: at `(b, n, h)` the maximum over the neighbours `k` of the network's output
    `h` on the row `X[b, n, k, :]`. -/
def pooled (X : (⟨4, ![4, 16384, 32, 35]⟩ : Shape).Idx → EReal)
    (W1 : (⟨2, ![32, 35]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal) :
    (⟨3, ![4, 16384, 32]⟩ : Shape).Idx → EReal :=
  fun i => (Finset.univ : Finset (Fin 32)).fold max negInf
    (fun k => mlp W1 b1 W2 b2 W3 b3
      (fun f => X (ix4 (n0 := 4) (n1 := 16384) (n2 := 32) (n3 := 35) (i 0) (i 1) k f)) (i 2))

/-- The result at explicit coordinates. -/
theorem pooled_apply (X : (⟨4, ![4, 16384, 32, 35]⟩ : Shape).Idx → EReal)
    (W1 : (⟨2, ![32, 35]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (b : Fin 4) (n : Fin 16384) (h : Fin 32) :
    pooled X W1 b1 W2 b2 W3 b3 (ix3 b n h)
      = (Finset.univ : Finset (Fin 32)).fold max negInf
          (fun k => mlp W1 b1 W2 b2 W3 b3 (fun f => X (ix4 b n k f)) h) := rfl

end Cert.Mlp

end
-- ==== Proof.RefValue.lean ====
/-
  The reference computes `Mlp.pooled`.

  Its stages are: a contraction of the feature axis with a weight matrix's second axis, a bias
  broadcast along the last axis and added, three times over; then a maximum over axis 2 from −∞.
  Read at an index (b, n, k, h) the first three stages are the affine layer on the row
  X[b, n, k, :], the next three the second layer on that row's 32 outputs, and so on: the
  contraction only ever moves along the last axis, so the first three coordinates ride along.
  The reduce over the neighbour axis, a fold of a commutative associative operation, is the fold
  over the 32 coordinates k of the operand at (b, n, k, h).
-/
import proofs.«138193_j9534827397769_1_alg».proof.Proof.Gen.ReferenceIdeal.Read
import proofs.«138193_j9534827397769_1_alg».proof.Proof.Spec

noncomputable section

open scoped BigOperators

namespace Cert.ReferenceIdeal.RefValue

open Cert.ReferenceIdeal Cert.ReferenceIdeal.Gen Cert.ReferenceIdeal.Read Cert.Mlp
open Idealize.ShloMosaic Idealize.ShloMosaic.ValueIdx

variable (x0 : (⟨S4x16384x32x35, .f32⟩ : BufTy).Contents (Elt Ideal)) (x1 : (⟨S32x35, .f32⟩ : BufTy).Contents (Elt Ideal))
  (x2 : (⟨S32, .f32⟩ : BufTy).Contents (Elt Ideal)) (x3 : (⟨S32x32, .f32⟩ : BufTy).Contents (Elt Ideal))
  (x4 : (⟨S32, .f32⟩ : BufTy).Contents (Elt Ideal)) (x5 : (⟨S32x32, .f32⟩ : BufTy).Contents (Elt Ideal))
  (x6 : (⟨S32, .f32⟩ : BufTy).Contents (Elt Ideal))

/-! ## The index maps of the stages, by coordinates -/

variable (b : Fin 4) (n : Fin 16384) (k : Fin 32) (h : Fin 32)

theorem lidx0 (f : Fin 35) : lidx_main_v0 (ix4 b n k h) f = ix4 b n k f :=
  funext fun a => by match a with | ⟨0, _⟩ => rfl | ⟨1, _⟩ => rfl | ⟨2, _⟩ => rfl | ⟨3, _⟩ => rfl
theorem ridx0 (f : Fin 35) : ridx_main_v0 (ix4 b n k h) f = ix2 h f :=
  funext fun a => by match a with | ⟨0, _⟩ => rfl | ⟨1, _⟩ => rfl
theorem lidx4 (j : Fin 32) : lidx_main_v4 (ix4 b n k h) j = ix4 b n k j :=
  funext fun a => by match a with | ⟨0, _⟩ => rfl | ⟨1, _⟩ => rfl | ⟨2, _⟩ => rfl | ⟨3, _⟩ => rfl
theorem ridx4 (j : Fin 32) : ridx_main_v4 (ix4 b n k h) j = ix2 h j :=
  funext fun a => by match a with | ⟨0, _⟩ => rfl | ⟨1, _⟩ => rfl
theorem lidx8 (j : Fin 32) : lidx_main_v8 (ix4 b n k h) j = ix4 b n k j :=
  funext fun a => by match a with | ⟨0, _⟩ => rfl | ⟨1, _⟩ => rfl | ⟨2, _⟩ => rfl | ⟨3, _⟩ => rfl
theorem ridx8 (j : Fin 32) : ridx_main_v8 (ix4 b n k h) j = ix2 h j :=
  funext fun a => by match a with | ⟨0, _⟩ => rfl | ⟨1, _⟩ => rfl
/-- The bias broadcasts read the bias at the last coordinate. -/
theorem bidx2 : idx_main_v1 (idx_main_v2 (ix4 b n k h)) = ix1 h :=
  funext fun a => by match a with | ⟨0, _⟩ => rfl
theorem bidx6 : idx_main_v5 (idx_main_v6 (ix4 b n k h)) = ix1 h :=
  funext fun a => by match a with | ⟨0, _⟩ => rfl
theorem bidx10 : idx_main_v9 (idx_main_v10 (ix4 b n k h)) = ix1 h :=
  funext fun a => by match a with | ⟨0, _⟩ => rfl

/-! ## The three layers at an index -/

/-- After the first contraction and bias: the first layer on the row `X[b, n, k, :]`, at output `h`. -/
theorem layer1_apply :
    val_main_v3 (F := Ideal) x0 x1 x2 (ix4 b n k h) = affine (fun f => x0 (ix4 b n k f)) x1 x2 h := by
  rw [val_main_v3_apply, val_main_v0_apply, val_main_v2_apply, val_main_v1_apply, bidx2]
  show (∑ f : Fin 35, _) + _ = (∑ f : Fin 35, _) + _
  congr 1
  refine Finset.sum_congr rfl fun f _ => ?_
  rw [lidx0, ridx0]

/-- After the second: the second layer on the first layer's outputs for the same row. -/
theorem layer2_apply :
    val_main_v7 (F := Ideal) x0 x1 x2 x3 x4 (ix4 b n k h)
      = affine (affine (fun f => x0 (ix4 b n k f)) x1 x2) x3 x4 h := by
  rw [val_main_v7_apply, val_main_v4_apply, val_main_v6_apply, val_main_v5_apply, bidx6]
  show (∑ j : Fin 32, _) + _ = (∑ j : Fin 32, _) + _
  congr 1
  refine Finset.sum_congr rfl fun j _ => ?_
  rw [lidx4, ridx4, layer1_apply]

/-- After the third: the whole network on the row. -/
theorem layer3_apply :
    val_main_v11 (F := Ideal) x0 x1 x2 x3 x4 x5 x6 (ix4 b n k h)
      = mlp x1 x2 x3 x4 x5 x6 (fun f => x0 (ix4 b n k f)) h := by
  rw [val_main_v11_apply, val_main_v8_apply, val_main_v10_apply, val_main_v9_apply, bidx10]
  show (∑ j : Fin 32, _) + _ = (∑ j : Fin 32, _) + _
  congr 1
  refine Finset.sum_congr rfl fun j _ => ?_
  rw [lidx8, ridx8, layer2_apply]

/-! ## The maximum over the neighbours -/

/-- The reduce's shape fact in the form that names the inserted coordinate. -/
theorem reduces_nbr : S4x16384x32x32.Reduces [2] S4x16384x32 := by decide

/-- The index over `(b, n, h)` with neighbour coordinate `k` inserted on axis 2 is `(b, n, k, h)`. -/
theorem lift_nbr : reduces_nbr.lift (ix3 b n h) k = ix4 b n k h :=
  funext fun a => by match a with | ⟨0, _⟩ => rfl | ⟨1, _⟩ => rfl | ⟨2, _⟩ => rfl | ⟨3, _⟩ => rfl

/-- The fold over the neighbour coordinates of the network's output at `(b, n, k, h)` is the
    specification at `(b, n, h)`. -/
theorem fold_nbr :
    (Finset.univ : Finset (Fin 32)).fold max negInf
        (val_main_v11 (F := Ideal) x0 x1 x2 x3 x4 x5 x6 ∘ reduces_nbr.lift (ix3 b n h))
      = pooled x0 x1 x2 x3 x4 x5 x6 (ix3 b n h) := by
  rw [pooled_apply]
  congr 1
  refine funext fun (k : Fin 32) => ?_
  show val_main_v11 (F := Ideal) x0 x1 x2 x3 x4 x5 x6 (reduces_nbr.lift (ix3 b n h) k) = _
  rw [lift_nbr, layer3_apply]

/-- The reference's result is `Mlp.pooled` of its arguments. -/
theorem result_eq : val_main_v12 (F := Ideal) x0 x1 x2 x3 x4 x5 x6 = pooled x0 x1 x2 x3 x4 x5 x6 := by
  funext i
  obtain ⟨b, n, h, rfl⟩ : ∃ (b : Fin 4) (n : Fin 16384) (h : Fin 32), i = ix3 b n h := ⟨i 0, i 1, i 2, eq_ix3 i⟩
  exact (Host.reduce_eq_fold_single (s := S4x16384x32x32) (t := S4x16384x32) (a := (2 : Fin 4))
    (FloatOps.maximumf (F := Ideal) (φ := .f32)) (val_main_v11 (F := Ideal) x0 x1 x2 x3 x4 x5 x6)
    (val_main_cst (F := Ideal)) reducesTo_S4x16384x32x32_S4x16384x32_d2 reduces_nbr h_S_ (ix3 b n h)).trans
    (fold_nbr x0 x1 x2 x3 x4 x5 x6 b n h)

end Cert.ReferenceIdeal.RefValue

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Dense.lean ====
/-
  One affine layer as the kernel writes it, read at a row and an output.

  On a matrix of rows `x : [R, K]` the kernel computes a layer as a matrix product into a zero
  accumulator with the weight matrix `w : [H, K]` transposed to `[K, H]`, plus the bias
  `b : [H]` cast to one row `[1, H]` and broadcast down the `R` rows. At `(r, h)`:
      (x · wᵀ)[r, h] + b[h] = (∑ f, x[r, f] * w[h, f]) + b[h],
  the affine layer of the specification on row `r`. Changes of float format are the identity at
  the ideal instance, so the operands may be of any format.
-/
import Idealize.ShloMosaic.Lib.ValueLayout
import Idealize.ShloMosaic.Lib.Pipeline.Value
import proofs.«138193_j9534827397769_1_alg».proof.Proof.LibDot2
import proofs.«138193_j9534827397769_1_alg».proof.Proof.Spec

noncomputable section

open scoped BigOperators

namespace Cert.Mlp

open Idealize.ShloMosaic Idealize.ShloMosaic.ValueIdx

/-- The product with the transposed weights into zero, plus the bias row broadcast down the rows,
    at `(r, h)`: the affine layer on row `r` of the left operand, at output `h`. -/
theorem dense_row {R K H : Nat} {φ₁ φ₂ : FTy}
    (wf : DotDims.WF ⟨2, ![R, K]⟩ ⟨2, ![K, H]⟩ ⟨2, ![R, H]⟩ [1] [0] [0] [1] [] [])
    (hT : (⟨2, ![H, K]⟩ : Shape).Transposes [1, 0] ⟨2, ![K, H]⟩)
    (hc : (⟨1, ![H]⟩ : Shape).ShapeCasts ⟨2, ![1, H]⟩)
    (hb : (⟨2, ![1, H]⟩ : Shape).Broadcasts ⟨2, ![R, H]⟩)
    (x : FVec Ideal ⟨2, ![R, K]⟩ φ₁) (w : FVec Ideal ⟨2, ![H, K]⟩ φ₂) (b : FVec Ideal ⟨1, ![H]⟩ .f32)
    (r : Fin R) (h : Fin H) :
    addf (matmul (Dot2.mmDims R K H wf) none x (transpose ⟨2, ![K, H]⟩ [1, 0] w hT)
          (constant ⟨2, ![R, H]⟩ .f32 0x00000000#32))
        (broadcastTo ⟨2, ![R, H]⟩ (shapeCast ⟨2, ![1, H]⟩ b hc) hb) (ix2 r h)
      = affine (fun f => x (ix2 r f)) w b h := by
  show FloatOps.matmul (Dot2.mmDims R K H wf) none x (transpose ⟨2, ![K, H]⟩ [1, 0] w hT)
        (constant ⟨2, ![R, H]⟩ .f32 0x00000000#32) (ix2 r h)
      + broadcastTo ⟨2, ![R, H]⟩ (shapeCast ⟨2, ![1, H]⟩ b hc) hb (ix2 r h)
    = (∑ f : Fin K, x (ix2 r f) * w (ix2 h f)) + b (ix1 h)
  rw [Dot2.matmul_zero_mm_apply, broadcastTo_1b_ab_apply, shapeCast_a_1a_apply]
  congr 1
  exact Finset.sum_congr rfl fun f _ => by rw [transpose_ix2_apply]

end Cert.Mlp

end
-- ==== Proof.KernelRows.lean ====
/-
  The kernel body's result at an index.

  A grid point's block of X is `[1, 1024, 32, 35]`: 1024 points, 32 neighbours each, 35 features.
  The body flattens it to 32768 rows of 35 features, row `n * 32 + k` being neighbour `k` of
  point `n`; applies the three affine layers to the matrix of rows (each a product with the
  transposed weights into zero plus the bias row, `Mlp.dense_row`); folds the rows back to
  `[1024, 32, 32]` and takes the maximum over the neighbour axis from −∞. So its result at
  `(0, n, h)` is the maximum over `k` of the network's output `h` on the row `(0, n, k, :)`
  of the block.
-/
import proofs.«138193_j9534827397769_1_alg».proof.Proof.Gen.KernelIdeal.Skeleton
import proofs.«138193_j9534827397769_1_alg».proof.Proof.Dense

noncomputable section

open scoped BigOperators

namespace Cert.KernelIdeal.Rows

open Cert.KernelIdeal Cert.KernelIdeal.Gen Cert.Mlp
open Idealize.ShloMosaic Idealize.ShloMosaic.ValueIdx

variable (x0 : Vec Ideal S1x1024x32x35 .f32) (x1 : Vec Ideal S32x35 .f32) (x2 : Vec Ideal S32 .f32)
  (x3 : Vec Ideal S32x32 .f32) (x4 : Vec Ideal S32 .f32) (x5 : Vec Ideal S32x32 .f32) (x6 : Vec Ideal S32 .f32)

/-! ## The block as a matrix of rows -/

/-- The block flattened to `[32768, 35]`. -/
def rows : FVec Ideal S32768x35 .f32 :=
  shapeCast S32768x35 (shapeCast S1024x32x35 x0 shapeCasts_S1x1024x32x35_S1024x32x35) shapeCasts_S1024x32x35_S32768x35

/-- The row number of neighbour `k` of point `n`. -/
abbrev rowOf (n : Fin 1024) (k : Fin 32) : Fin 32768 := ⟨n.val * 32 + k.val, by have := n.isLt; have := k.isLt; omega⟩

/-- Row `n * 32 + k` of the flattened block is the feature row of neighbour `k` of point `n`. -/
theorem rows_apply (n : Fin 1024) (k : Fin 32) (f : Fin 35) :
    rows x0 (ix2 (rowOf n k) f) = x0 (ix4 (0 : Fin 1) n k f) := by
  unfold rows
  rw [shapeCast_apply _ shapeCasts_S1024x32x35_S32768x35 (ix2 (rowOf n k) f) (ix3 n k f) (by
    rw [Shape.rowMajor_val_three, Shape.rowMajor_val_two]; rfl)]
  exact shapeCast_1abc_abc_apply x0 _ n k f

/-! ## The three layers on the matrix of rows -/

/-- The two products' dimension numbers are the plain matrix product's. -/
theorem dot1_eq : dot_S32768x35_S35x32_S32768x32_1_0_0_1_n_n
    = Dot2.mmDims 32768 35 32 dot_S32768x35_S35x32_S32768x32_1_0_0_1_n_n_wf := rfl
theorem dot2_eq : dot_S32768x32_S32x32_S32768x32_1_0_0_1_n_n
    = Dot2.mmDims 32768 32 32 dot_S32768x32_S32x32_S32768x32_1_0_0_1_n_n_wf := rfl

/-- The first layer's output, `[32768, 32]`. -/
def act1 : FVec Ideal S32768x32 .f32 :=
  addf (matmul dot_S32768x35_S35x32_S32768x32_1_0_0_1_n_n none (truncf .bf16 (rows x0) bitsLt_bf16_f32)
      (transpose S35x32 [1, 0] (truncf .bf16 x1 bitsLt_bf16_f32) transposes_S32x35_p1_0_S35x32)
      (constant S32768x32 .f32 0x00000000#32))
    (broadcastTo S32768x32 (shapeCast S1x32 x2 shapeCasts_S32_S1x32) broadcasts_S1x32_S32768x32)

/-- The second layer's output. -/
def act2 : FVec Ideal S32768x32 .f32 :=
  addf (matmul dot_S32768x32_S32x32_S32768x32_1_0_0_1_n_n none (truncf .bf16 (act1 x0 x1 x2) bitsLt_bf16_f32)
      (transpose S32x32 [1, 0] (truncf .bf16 x3 bitsLt_bf16_f32) transposes_S32x32_p1_0_S32x32)
      (constant S32768x32 .f32 0x00000000#32))
    (broadcastTo S32768x32 (shapeCast S1x32 x4 shapeCasts_S32_S1x32) broadcasts_S1x32_S32768x32)

/-- The third layer's output. -/
def act3 : FVec Ideal S32768x32 .f32 :=
  addf (matmul dot_S32768x32_S32x32_S32768x32_1_0_0_1_n_n none (truncf .bf16 (act2 x0 x1 x2 x3 x4) bitsLt_bf16_f32)
      (transpose S32x32 [1, 0] (truncf .bf16 x5 bitsLt_bf16_f32) transposes_S32x32_p1_0_S32x32)
      (constant S32768x32 .f32 0x00000000#32))
    (broadcastTo S32768x32 (shapeCast S1x32 x6 shapeCasts_S32_S1x32) broadcasts_S1x32_S32768x32)

theorem act1_apply (r : Fin 32768) (h : Fin 32) :
    act1 x0 x1 x2 (ix2 r h) = affine (fun f => rows x0 (ix2 r f)) x1 x2 h := by
  unfold act1
  rw [dot1_eq]
  exact dense_row _ _ _ _ (truncf .bf16 (rows x0) bitsLt_bf16_f32) (truncf .bf16 x1 bitsLt_bf16_f32) x2 r h

theorem act2_apply (r : Fin 32768) (h : Fin 32) :
    act2 x0 x1 x2 x3 x4 (ix2 r h) = affine (affine (fun f => rows x0 (ix2 r f)) x1 x2) x3 x4 h := by
  unfold act2
  rw [dot2_eq]
  refine (dense_row _ _ _ _ (truncf .bf16 (act1 x0 x1 x2) bitsLt_bf16_f32) (truncf .bf16 x3 bitsLt_bf16_f32) x4 r h).trans ?_
  exact congrArg (fun g => affine g x3 x4 h) (funext fun j => act1_apply x0 x1 x2 r j)

theorem act3_apply (r : Fin 32768) (h : Fin 32) :
    act3 x0 x1 x2 x3 x4 x5 x6 (ix2 r h) = mlp x1 x2 x3 x4 x5 x6 (fun f => rows x0 (ix2 r f)) h := by
  unfold act3
  rw [dot2_eq]
  refine (dense_row _ _ _ _ (truncf .bf16 (act2 x0 x1 x2 x3 x4) bitsLt_bf16_f32) (truncf .bf16 x5 bitsLt_bf16_f32) x6 r h).trans ?_
  exact congrArg (fun g => affine g x5 x6 h) (funext fun j => act2_apply x0 x1 x2 x3 x4 r j)

/-! ## The maximum over the neighbours, and the payload -/

/-- The body's stored value is the layers' output folded back and reduced. -/
theorem pay_eq : k0_pay1 (F := Ideal) x0 x1 x2 x3 x4 x5 x6
    = shapeCast S1x1024x32 (multiReduction .maximumf [1] S1024x32
        (shapeCast S1024x32x32 (act3 x0 x1 x2 x3 x4 x5 x6) shapeCasts_S32768x32_S1024x32x32)
        0xFF800000#32 reduces_S1024x32x32_S1024x32 (.inl rfl) rfl) shapeCasts_S1024x32_S1x1024x32 := rfl

/-- With neighbour coordinate `k` inserted on axis 1, `(n, h)` is `(n, k, h)`. -/
theorem lift_nbr (n : Fin 1024) (h : Fin 32) (k : Fin 32) :
    reduces_S1024x32x32_S1024x32.lift (ix2 n h) k = ix3 n k h :=
  funext fun a => by match a with | ⟨0, _⟩ => rfl | ⟨1, _⟩ => rfl | ⟨2, _⟩ => rfl

/-- The body's result at `(0, n, h)`: the maximum over the neighbours `k`, from −∞, of the network's
    output `h` on the block's row `(0, n, k, :)`. -/
theorem pay_apply (u : Fin 1) (n : Fin 1024) (h : Fin 32) :
    k0_pay1 (F := Ideal) x0 x1 x2 x3 x4 x5 x6 (ix3 u n h)
      = (Finset.univ : Finset (Fin 32)).fold max negInf
          (fun k => mlp x1 x2 x3 x4 x5 x6 (fun f => x0 (ix4 (0 : Fin 1) n k f)) h) := by
  rw [pay_eq, shapeCast_ab_1ab_apply]
  refine (Ideal.multiReduction_maximumf_single
    (shapeCast S1024x32x32 (act3 x0 x1 x2 x3 x4 x5 x6) shapeCasts_S32768x32_S1024x32x32) 0xFF800000#32
    reduces_S1024x32x32_S1024x32 (.inl rfl) rfl (ix2 n h)).trans ?_
  congr 1
  refine funext fun (k : Fin 32) => ?_
  have e : reduces_S1024x32x32_S1024x32.lift (ix2 n h) k = ix3 n k h := lift_nbr n h k
  show shapeCast S1024x32x32 (act3 x0 x1 x2 x3 x4 x5 x6) shapeCasts_S32768x32_S1024x32x32
      (reduces_S1024x32x32_S1024x32.lift (ix2 n h) k) = _
  rw [e, shapeCast_apply _ shapeCasts_S32768x32_S1024x32x32 (ix3 n k h) (ix2 (rowOf n k) h) (by
    rw [Shape.rowMajor_val_three, Shape.rowMajor_val_two]; rfl), act3_apply]
  exact congrArg (fun g => mlp x1 x2 x3 x4 x5 x6 g h) (funext fun f => rows_apply x0 n k f)

/-- A block that holds the rows of points `q * 1024 + n` of batch `p` of the whole array gives, at
    `(0, n, h)`, the specification at `(p, q * 1024 + n, h)`: both are the maximum over the neighbours
    of the network on the same feature rows. -/
theorem pay_eq_pooled (X : (⟨4, ![4, 16384, 32, 35]⟩ : Shape).Idx → EReal) (p : Fin 4) (q : Fin 16)
    (hx : ∀ (n : Fin 1024) (k : Fin 32) (f : Fin 35),
      x0 (ix4 (0 : Fin 1) n k f) = X (ix4 p ⟨q.val * 1024 + n.val, by have := q.isLt; have := n.isLt; omega⟩ k f))
    (u : Fin 1) (n : Fin 1024) (h : Fin 32) :
    k0_pay1 (F := Ideal) x0 x1 x2 x3 x4 x5 x6 (ix3 u n h)
      = pooled X x1 x2 x3 x4 x5 x6 (ix3 p ⟨q.val * 1024 + n.val, by have := q.isLt; have := n.isLt; omega⟩ h) := by
  rw [pay_apply, pooled_apply]
  congr 1
  refine funext fun (k : Fin 32) => ?_
  exact congrArg (fun g => mlp x1 x2 x3 x4 x5 x6 g h) (funext fun f => hx n k f)

end Cert.KernelIdeal.Rows

end
-- ==== Proof.KernelValue.lean ====
/-
  The kernel's result array.

  The grid is 4 × 16: point `t` has block coordinates `(p, q)`, its X block is
  `X[p, q*1024 : (q+1)*1024, :, :]`, the six weight and bias windows are the whole arrays at
  every point, and its output block is `out[p, q*1024 : (q+1)*1024, :]`. The body's result on
  those blocks is the specification `Mlp.pooled` of the argument arrays read through the output
  block (`Rows.pay_eq_pooled`), and the 64 output blocks tile the `[4, 16384, 32]` array: the
  point that covers `(b, r, h)` is `(b, r / 1024)`. So after the run the array is `Mlp.pooled` of
  the arguments.
-/
import proofs.«138193_j9534827397769_1_alg».proof.Proof.Gen.KernelIdeal.Value
import proofs.«138193_j9534827397769_1_alg».proof.Proof.KernelRows

noncomputable section

namespace Cert.KernelIdeal.Pooled

open Cert.KernelIdeal Cert.KernelIdeal.Gen Cert.Mlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The specification of the argument arrays as launched, on core `c`. -/
abbrev G (c : Dev nD) : S4x16384x32.Idx → EReal :=
  pooled (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The printed index maps over the 64 grid points: the output block's coordinates are in range and
    its last is 0; the X window moves with it on the first two axes and stays at 0 on the others;
    the weight and bias windows stay at block 0. -/
theorem idx_facts : ∀ t : Fin cfg0.N,
    win0_7.index t (0 : Fin 3) < 4 ∧ win0_7.index t (1 : Fin 3) < 16 ∧ win0_7.index t (2 : Fin 3) = 0
    ∧ win0_0.index t (0 : Fin 4) = win0_7.index t (0 : Fin 3) ∧ win0_0.index t (1 : Fin 4) = win0_7.index t (1 : Fin 3)
    ∧ win0_0.index t (2 : Fin 4) = 0 ∧ win0_0.index t (3 : Fin 4) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- Every block `(p, q)` of the output is some point's. -/
theorem idx_onto : ∀ (p : Fin 4) (q : Fin 16), ∃ t : Fin cfg0.N, win0_7.index t = ![p.val, q.val, 0] :=
  (by decide +kernel : ∀ (p : Fin 4) (q : Fin 16), ∃ t : Fin grid0.N, win0_7.index t = ![p.val, q.val, 0])

/-! ## The input blocks -/

/-- The X block at a point with block coordinates `(p, q)`: rows `q * 1024 + n` of batch `p`. -/
theorem blkX_apply (c : Dev nD) (t : Fin cfg0.N) (p : Fin 4) (q : Fin 16)
    (h0 : win0_0.index t (0 : Fin 4) = p.val) (h1 : win0_0.index t (1 : Fin 4) = q.val)
    (h2 : win0_0.index t (2 : Fin 4) = 0) (h3 : win0_0.index t (3 : Fin 4) = 0)
    (n : Fin 1024) (k : Fin 32) (f : Fin 35) :
    (iblk m c 0 t : Vec Ideal S1x1024x32x35 .f32) (ix4 (0 : Fin 1) n k f)
      = m ((c : Thread nD τ).loc main_arg0) (ix4 p ⟨q.val * 1024 + n.val, by have := q.isLt; have := n.isLt; omega⟩ k f) := by
  show V m c main_arg0 (((cfg0.win 0).blk t).view.emb (ix4 (0 : Fin 1) n k f))
    = V m c main_arg0 (ix4 p ⟨q.val * 1024 + n.val, by have := q.isLt; have := n.isLt; omega⟩ k f)
  refine congrArg _ (funext fun a => Fin.ext ?_)
  match a with
  | ⟨0, _⟩ => show win0_0.index t (0 : Fin 4) * 1 + 1 * 0 = p.val; omega
  | ⟨1, _⟩ => show win0_0.index t (1 : Fin 4) * 1024 + 1 * n.val = q.val * 1024 + n.val; omega
  | ⟨2, _⟩ => show win0_0.index t (2 : Fin 4) * 32 + 1 * k.val = k.val; omega
  | ⟨3, _⟩ => show win0_0.index t (3 : Fin 4) * 35 + 1 * f.val = f.val; omega

/-- A weight window's block is the whole matrix. -/
theorem blkW1_eq (c : Dev nD) (t : Fin cfg0.N) (h0 : win0_1.index t (0 : Fin 2) = 0) (h1 : win0_1.index t (1 : Fin 2) = 0) :
    (iblk m c 1 t : Vec Ideal S32x35 .f32) = m ((c : Thread nD τ).loc main_arg1) := by
  funext y
  show V m c main_arg1 (((cfg0.win 1).blk t).view.emb y) = V m c main_arg1 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 35 + 1 * (y 1).val = (y 1).val; omega
theorem blkW2_eq (c : Dev nD) (t : Fin cfg0.N) (h0 : win0_3.index t (0 : Fin 2) = 0) (h1 : win0_3.index t (1 : Fin 2) = 0) :
    (iblk m c 3 t : Vec Ideal S32x32 .f32) = m ((c : Thread nD τ).loc main_arg3) := by
  funext y
  show V m c main_arg3 (((cfg0.win 3).blk t).view.emb y) = V m c main_arg3 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega
theorem blkW3_eq (c : Dev nD) (t : Fin cfg0.N) (h0 : win0_5.index t (0 : Fin 2) = 0) (h1 : win0_5.index t (1 : Fin 2) = 0) :
    (iblk m c 5 t : Vec Ideal S32x32 .f32) = m ((c : Thread nD τ).loc main_arg5) := by
  funext y
  show V m c main_arg5 (((cfg0.win 5).blk t).view.emb y) = V m c main_arg5 y
  refine congrArg _ (funext fun a => Fin.ext ?_)
  match a with
  | ⟨0, _⟩ => show win0_5.index t (0 : Fin 2) * 32 + 1 * (y 0).val = (y 0).val; omega
  | ⟨1, _⟩ => show win0_5.index t (1 : Fin 2) * 32 + 1 * (y 1).val = (y 1).val; omega

/-- A bias window's block is the whole vector. -/
theorem blkB1_eq (c : Dev nD) (t : Fin cfg0.N) (h0 : win0_2.index t (0 : Fin 1) = 0) :
    (iblk m c 2 t : Vec Ideal S32 .f32) = m ((c : Thread nD τ).loc main_arg2) := by
  funext y
  show V m c main_arg2 (((cfg0.win 2).blk t).view.emb y) = V m c main_arg2 y
  refine congrArg _ (funext fun a => Fin.ext ?_)
  match a with
  | ⟨0, _⟩ => show win0_2.index t (0 : Fin 1) * 32 + 1 * (y 0).val = (y 0).val; omega
theorem blkB2_eq (c : Dev nD) (t : Fin cfg0.N) (h0 : win0_4.index t (0 : Fin 1) = 0) :
    (iblk m c 4 t : Vec Ideal S32 .f32) = m ((c : Thread nD τ).loc main_arg4) := by
  funext y
  show V m c main_arg4 (((cfg0.win 4).blk t).view.emb y) = V m c main_arg4 y
  refine congrArg _ (funext fun a => Fin.ext ?_)
  match a with
  | ⟨0, _⟩ => show win0_4.index t (0 : Fin 1) * 32 + 1 * (y 0).val = (y 0).val; omega
theorem blkB3_eq (c : Dev nD) (t : Fin cfg0.N) (h0 : win0_6.index t (0 : Fin 1) = 0) :
    (iblk m c 6 t : Vec Ideal S32 .f32) = m ((c : Thread nD τ).loc main_arg6) := by
  funext y
  show V m c main_arg6 (((cfg0.win 6).blk t).view.emb y) = V m c main_arg6 y
  refine congrArg _ (funext fun a => Fin.ext ?_)
  match a with
  | ⟨0, _⟩ => show win0_6.index t (0 : Fin 1) * 32 + 1 * (y 0).val = (y 0).val; omega

/-! ## The output block -/

/-- The output block's place in the array at a point with block coordinates `(p, q)`. -/
theorem emb_out (t : Fin cfg0.N) (p : Fin 4) (q : Fin 16)
    (h0 : win0_7.index t (0 : Fin 3) = p.val) (h1 : win0_7.index t (1 : Fin 3) = q.val) (h2 : win0_7.index t (2 : Fin 3) = 0)
    (u : Fin 1) (n : Fin 1024) (h : Fin 32) :
    ((cfg0.win 7).blk t).view.emb (ix3 u n h)
      = ix3 p ⟨q.val * 1024 + n.val, by have := q.isLt; have := n.isLt; omega⟩ h := by
  funext a
  apply Fin.ext
  match a with
  | ⟨0, _⟩ => show win0_7.index t (0 : Fin 3) * 1 + 1 * u.val = p.val; have := u.isLt; omega
  | ⟨1, _⟩ => show win0_7.index t (1 : Fin 3) * 1024 + 1 * n.val = q.val * 1024 + n.val; omega
  | ⟨2, _⟩ => show win0_7.index t (2 : Fin 3) * 32 + 1 * h.val = h.val; omega

/-- What point `t` writes back is block `t` of the specification of the arguments. -/
theorem flushed_eq (c : Dev nD) (t : Fin cfg0.N) :
    (dats m 0 c).flushed 7 t = ((cfg0.win 7).blk t).view.read (Elt Ideal) (G m c) := by
  rw [Value.flushed7]
  unfold out0_7
  rw [View.canon_unit_zero hz3]
  simp only [View.ld_unit_zero (S := S1x1024x32x35) hz4, View.ld_unit_zero (S := S32x35) hz2,
    View.ld_unit_zero (S := S32) hz1, View.ld_unit_zero (S := S32x32) hz2]
  obtain ⟨hp, hq, e2, e3, e4, e5, e6, e7, e8, e9, e10, e11, e12, e13, e14, e15⟩ := idx_facts t
  rw [blkW1_eq m c t e7 e8, blkB1_eq m c t e9, blkW2_eq m c t e10 e11, blkB2_eq m c t e12,
    blkW3_eq m c t e13 e14, blkB3_eq m c t e15]
  refine funext fun (j : S1x1024x32.Idx) => ?_
  obtain ⟨u, n, h, rfl⟩ : ∃ (u : Fin 1) (n : Fin 1024) (h : Fin 32), j = ix3 u n h := ⟨j 0, j 1, j 2, eq_ix3 j⟩
  show k0_pay1 (F := Ideal) (iblk m c 0 t) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (ix3 u n h)
    = G m c (((cfg0.win 7).blk t).view.emb (ix3 u n h))
  rw [emb_out t ⟨win0_7.index t (0 : Fin 3), hp⟩ ⟨win0_7.index t (1 : Fin 3), hq⟩ rfl rfl e2 u n h]
  exact Rows.pay_eq_pooled (iblk m c 0 t) _ _ _ _ _ _ (m ((c : Thread nD τ).loc main_arg0))
    ⟨win0_7.index t (0 : Fin 3), hp⟩ ⟨win0_7.index t (1 : Fin 3), hq⟩
    (fun n k f => blkX_apply m c t ⟨win0_7.index t (0 : Fin 3), hp⟩ ⟨win0_7.index t (1 : Fin 3), hq⟩ e3 e4 e5 e6 n k f) u n h

/-- An index of the array is in point `t`'s block iff each coordinate is in the block's range on its axis. -/
theorem mem_blk (t : Fin cfg0.N) (i : S4x16384x32.Idx) :
    i ∈ ((cfg0.win 7).blk t).view.set ↔ ∀ a : Fin 3, win0_7.index t a * S1x1024x32.size a ≤ (i a).val ∧ (i a).val < win0_7.index t a * S1x1024x32.size a + S1x1024x32.size a := by
  show i ∈ ((View.whole main_v0).slice (win0_7.rect t)).set ↔ _
  rw [View.set_slice_whole, Rect.mem_set_unit]
  exact Iff.rfl

/-- The output blocks tile the array: `(b, r, h)` is in the block of the point `(b, r / 1024)`. -/
theorem cover (i : S4x16384x32.Idx) :
    ∃ t : Fin cfg0.N, (cfg0.win 7).flush t = true ∧ i ∈ ((cfg0.win 7).blk t).view.set := by
  have hi0 : (i 0).val < 4 := (i 0).isLt
  have hi1 : (i 1).val < 16384 := (i 1).isLt
  have hi2 : (i 2).val < 32 := (i 2).isLt
  obtain ⟨t, ht⟩ := idx_onto ⟨(i 0).val, hi0⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 32 ≤ (i 2).val ∧ (i 2).val < win0_7.index t (2 : Fin 3) * 32 + 32; omega

/-- The result array after the run is the specification of the arguments. -/
theorem final (c : Dev nD) : (dats m 0 c).arrAt 7 cfg0.N = G m c :=
  (dats m 0 c).arrAt_eq_of_cover 7 (G m c) (fun t _ => flushed_eq m c t) cover

/-- The kernel's run: the result array at `Mlp.pooled` of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Pooled

end
-- ==== Proof.lean ====
/- The proof of `Cert.Claim`: the kernel and its jnp reference both compute, at `(b, n, h)`, the maximum
   over the 32 neighbours `k` of a three-layer affine network (35 → 32 → 32 → 32, no nonlinearity)
   applied to the feature row `X[b, n, k, :]` (`Mlp.pooled`, Proof/Spec.lean).
   The kernel tiles the points 1024 at a time, flattens a tile to 32768 rows, runs each layer as a
   matrix product with the transposed weights into zero plus a broadcast bias, and reduces the
   neighbour axis from −∞ (Proof/Dense.lean, Proof/KernelRows.lean, Proof/KernelValue.lean); the
   reference contracts the feature axis of the whole array three times and reduces axis 2
   (Proof/RefValue.lean). At the ideal instance a change of float format is the identity, both
   products are the plain sum over the contracted coordinate, and both maxima the fold of `max`
   over the neighbour coordinate: the two results are one function, with no sum reordered, so
   the precondition is never opened. The idealization rewrote nothing, so `preserves` is trivial. -/
import proofs.«138193_j9534827397769_1_alg».proof.Defs
import proofs.«138193_j9534827397769_1_alg».proof.Proof.Gen.Kernel
import proofs.«138193_j9534827397769_1_alg».proof.Proof.Gen.Kernel.Frame
import proofs.«138193_j9534827397769_1_alg».proof.Proof.Gen.KernelIdeal
import proofs.«138193_j9534827397769_1_alg».proof.Proof.Gen.KernelIdeal.Frame
import proofs.«138193_j9534827397769_1_alg».proof.Proof.Gen.KernelIdeal.Value
import proofs.«138193_j9534827397769_1_alg».proof.Proof.Gen.ReferenceIdeal
import proofs.«138193_j9534827397769_1_alg».proof.Proof.Gen.ReferenceIdeal.Run
import proofs.«138193_j9534827397769_1_alg».proof.Proof.Gen.ReferenceIdeal.Read
import proofs.«138193_j9534827397769_1_alg».proof.Proof.Gen.Pre_finite_inputs
import proofs.«138193_j9534827397769_1_alg».proof.Proof.RefValue
import proofs.«138193_j9534827397769_1_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `Mlp.pooled` of the arguments, which agree. -/
theorem algebraic : Cert.algebraic_KernelIdeal_ReferenceIdeal := by
  intro m ρ m' ρ' _ hagree
  refine ⟨fun c => Cert.KernelIdeal.Pooled.G m c, Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
